-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩
abbrev S256x128 : Shape := ⟨2, ![256, 128]⟩
abbrev S128 : Shape := ⟨1, ![128]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x128 : S_.BroadcastsInDim S128x128 (![] : Fin 0 → Fin S128x128.rank)
  reducesTo_S128x128_S_d0_1 : S128x128.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  reducesTo_S_S_d : S_.ReducesTo [] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  main_v52

def fn_part2 {F : FTy → Type} [FloatOps F] (main_arg8 : FVec F S1 .f32) (main_arg9 : FVec F S_ .f32) (main_arg10 : FVec F S256x128 .f32) (main_arg11 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S256x128 .f32 := Host.absf main_arg10
  let main_cst_16 : FVec F S_ .f32 := constant S_ .f32 0x7F800000#32
  let main_v44 : FVec F S256x128 .f32 := broadcastInDim S256x128 ![] bcast_S_S256x128 main_cst_16
  let main_v45 : IVec S256x128 1 := cmpf .olt main_v43 main_v44
  let main_c_17 : IVec S_ 1 := constantI S_ 1 1#1
  let main_v46 : IVec S_ 1 := (fun x v => Host.reduce IntOp.andi x v reducesTo_S256x128_S_d0_1 h_S_) main_v45 main_c_17
  let main_v47 : IVec S_ 1 := andi main_v42 main_v46
  let main_v48 : FVec F S128 .f32 := Host.absf main_arg11
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_v47 main_v50

def fn_part1 {F : FTy → Type} [FloatOps F] (main_arg5 : FVec F S16x32 .f32) (main_arg6 : FVec F S32 .f32) (main_arg7 : FVec F S32x1 .f32) (main_arg8 : FVec F S1 .f32) (main_arg9 : FVec F S_ .f32) (main_arg10 : FVec F S256x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x16 .f32) (main_arg3 : FVec F S128x128 .f32) (main_arg4 : FVec F S128x128 .f32) (main_arg5 : FVec F S16x32 .f32) (main_arg6 : FVec F S32 .f32) (main_arg7 : FVec F S32x1 .f32) (main_arg8 : FVec F S1 .f32) (main_arg9 : FVec F S_ .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩
abbrev S256x128 : Shape := ⟨2, ![256, 128]⟩
abbrev S128 : Shape := ⟨1, ![128]⟩
abbrev S800000x1 : Shape := ⟨2, ![800000, 1]⟩
abbrev S40000x16 : Shape := ⟨2, ![40000, 16]⟩
abbrev S40000x1 : Shape := ⟨2, ![40000, 1]⟩
abbrev S40000x32 : Shape := ⟨2, ![40000, 32]⟩
abbrev S1x32 : Shape := ⟨2, ![1, 32]⟩
abbrev S1x1 : Shape := ⟨2, ![1, 1]⟩
abbrev S800000 : Shape := ⟨1, ![800000]⟩
abbrev S1x800000 : Shape := ⟨2, ![1, 800000]⟩
abbrev S1600000 : Shape := ⟨1, ![1600000]⟩
abbrev S50000 : Shape := ⟨1, ![50000]⟩
abbrev S1600000x1 : Shape := ⟨2, ![1600000, 1]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S1600000x128 : Shape := ⟨2, ![1600000, 128]⟩
abbrev S1x128 : Shape := ⟨2, ![1, 128]⟩

abbrev nBuf : Space → Nat
  | .hbm => 119
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S128x128, .f32⟩
  | .hbm, ⟨4, _⟩ => ⟨S128x128, .f32⟩
  | .hbm, ⟨5, _⟩ => ⟨S16x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S_, .f32⟩
  | .hbm, ⟨10, _⟩ => ⟨S256x128, .f32⟩
  | .hbm, ⟨11, _⟩ => ⟨S128, .f32⟩
  | .hbm, ⟨12, _⟩ => ⟨S800000x1, .f32⟩
  | .hbm, ⟨13, _⟩ => ⟨S800000, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S1600000, .i32⟩
  | .hbm, ⟨19, _⟩ => ⟨S1600000, .i32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S128x256, .f32⟩
  | .hbm, ⟨52, _⟩ => ⟨S50000x256, .f32⟩
  | .hbm, ⟨53, _⟩ => ⟨S50000x128, .f32⟩
  | .hbm, ⟨54, _⟩ => ⟨S50000x128, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S50000x128, .f32⟩
  | .hbm, ⟨69, _⟩ => ⟨S1600000x1, .i32⟩
  | .hbm, ⟨70, _⟩ => ⟨S50000x128, .f32⟩
  | .hbm, ⟨71, _⟩ => ⟨S1600000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S50000x128, .f32⟩
  | .hbm, ⟨85, _⟩ => ⟨S1600000x1, .i32⟩
  | .hbm, ⟨86, _⟩ => ⟨S50000x128, .f32⟩
  | .hbm, ⟨87, _⟩ => ⟨S1600000x1, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S50000x128, .f32⟩
  | .hbm, ⟨101, _⟩ => ⟨S1600000x1, .i32⟩
  | .hbm, ⟨102, _⟩ => ⟨S50000x128, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S128x128, .f32⟩
  | .hbm, ⟨117, _⟩ => ⟨S128x128, .f32⟩
  | .hbm, ⟨118, _⟩ => ⟨S50000x128, .f32⟩
  | .local _ .vmem, ⟨0, _⟩ => ⟨S40000x16, .f32⟩
  | .local _ .vmem, ⟨1, _⟩ => ⟨S40000x16, .f32⟩
  | .local _ .vmem, ⟨2, _⟩ => ⟨S16x32, .f32⟩
  | .local _ .vmem, ⟨3, _⟩ => ⟨S32, .f32⟩
  | .local _ .vmem, ⟨4, _⟩ => ⟨S32x1, .f32⟩
  | .local _ .vmem, ⟨5, _⟩ => ⟨S1, .f32⟩
  | .local _ .vmem, ⟨6, _⟩ => ⟨S40000x1, .f32⟩
  | .local _ .vmem, ⟨7, _⟩ => ⟨S40000x1, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S5000x256, .f32⟩
  | .local _ .vmem, ⟨12, _⟩ => ⟨S5000x256, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_cst_15 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S40000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S40000x16_S40000x16_0_0 : ∀ a, (![0, 0] : Fin 2 → Nat) a + S40000x16.size a ≤ S40000x16.size a
  h_S40000x16 : 0 < S40000x16.numel
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S40000x32 : S1x32.Broadcasts S40000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S40000x1 : S1x1.Broadcasts S40000x1
  inb_S40000x1_S40000x1_0_0 : ∀ a, (![0, 0] : Fin 2 → Nat) a + S40000x1.size a ≤ S40000x1.size a
  h_S40000x1 : 0 < S40000x1.numel
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S40000x16_S16x32_S40000x32_1_0_0_1_n_n_wf : DotDims.WF S40000x16 S16x32 S40000x32 [1] [0] [0] [1] [] []
  dot_S40000x32_S32x1_S40000x1_1_0_0_1_n_n_wf : DotDims.WF S40000x32 S32x1 S40000x1 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x256_S5000x256_1_0_0_1_n_n_wf : DotDims.WF S5000x128 S128x256 S5000x256 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40000x16.size a ≤ S800000x16.size a
  hwx0_0 : ∀ i : grid0.Coords, EltTy.bits .f32 = 32 ∨ (Rect.block (s := S800000x16) S40000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S40000x1.size a ≤ S800000x1.size a
  hwx0_5 : ∀ i : grid0.Coords, EltTy.bits .f32 = 32 ∨ (Rect.block (s := S800000x1) S40000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S40000x16_S16x32_S40000x32_1_0_0_1_n_n : DotDims S40000x16 S16x32 S40000x32 where
  lhsContracting := [1]
  rhsContracting := [0]
  lhsNonContracting := [0]
  rhsNonContracting := [1]
  lhsBatch := []
  rhsBatch := []
  wf := dot_S40000x16_S16x32_S40000x32_1_0_0_1_n_n_wf
def dot_S40000x32_S32x1_S40000x1_1_0_0_1_n_n : DotDims S40000x32 S32x1 S40000x1 where
  lhsContracting := [1]
  rhsContracting := [0]
  lhsNonContracting := [0]
  rhsNonContracting := [1]
  lhsBatch := []
  rhsBatch := []
  wf := dot_S40000x32_S32x1_S40000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S40000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S40000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v81) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x128 : Shape := ⟨2, ![128, 128]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩
abbrev S256x128 : Shape := ⟨2, ![256, 128]⟩
abbrev S128 : Shape := ⟨1, ![128]⟩
abbrev S800000x32 : Shape := ⟨2, ![800000, 32]⟩
abbrev S1x32 : Shape := ⟨2, ![1, 32]⟩
abbrev S800000x1 : Shape := ⟨2, ![800000, 1]⟩
abbrev S1x1 : Shape := ⟨2, ![1, 1]⟩
abbrev S800000 : Shape := ⟨1, ![800000]⟩
abbrev S1x800000 : Shape := ⟨2, ![1, 800000]⟩
abbrev S1600000 : Shape := ⟨1, ![1600000]⟩
abbrev S50000 : Shape := ⟨1, ![50000]⟩
abbrev S1600000x1 : Shape := ⟨2, ![1600000, 1]⟩
abbrev S1600000x128 : Shape := ⟨2, ![1600000, 128]⟩
abbrev S50000x256 : Shape := ⟨2, ![50000, 256]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x128, .f32⟩
  | 4 => ⟨S128x128, .f32⟩
  | 5 => ⟨S16x32, .f32⟩
  | 6 => ⟨S32, .f32⟩
  | 7 => ⟨S32x1, .f32⟩
  | 8 => ⟨S1, .f32⟩
  | 9 => ⟨S_, .f32⟩
  | 10 => ⟨S256x128, .f32⟩
  | 11 => ⟨S128, .f32⟩
  | 12 => ⟨S800000x32, .f32⟩
  | 13 => ⟨S1x32, .f32⟩
  | 14 => ⟨S800000x32, .f32⟩
  | 15 => ⟨S800000x32, .f32⟩
  | 16 => ⟨S_, .f32⟩
  | 17 => ⟨S800000x32, .f32⟩
  | 18 => ⟨S800000x32, .f32⟩
  | 19 => ⟨S800000x1, .f32⟩
  | 20 => ⟨S1x1, .f32⟩
  | 21 => ⟨S800000x1, .f32⟩
  | 22 => ⟨S800000x1, .f32⟩
  | 23 => ⟨S800000, .f32⟩
  | 24 => ⟨S800000, .f32⟩
  | 25 => ⟨S800000, .f32⟩
  | 26 => ⟨S_, .f32⟩
  | 27 => ⟨S800000, .f32⟩
  | 28 => ⟨S800000, .f32⟩
  | 29 => ⟨S_, .f32⟩
  | 30 => ⟨S800000, .f32⟩
  | 31 => ⟨S800000, .f32⟩
  | 32 => ⟨S1x800000, .i32⟩
  | 33 => ⟨S800000, .i32⟩
  | 34 => ⟨S1x800000, .i32⟩
  | 35 => ⟨S800000, .i32⟩
  | 36 => ⟨S1600000, .i32⟩
  | 37 => ⟨S1600000, .i32⟩
  | 38 => ⟨S1600000, .f32⟩
  | 39 => ⟨S_, .f32⟩
  | 40 => ⟨S50000, .f32⟩
  | 41 => ⟨S1600000x1, .i32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S1600000, .f32⟩
  | 69 => ⟨S50000x128, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x128, .f32⟩
  | 81 => ⟨S1600000x128, .f32⟩
  | 82 => ⟨S_, .f32⟩
  | 83 => ⟨S50000x128, .f32⟩
  | 84 => ⟨S1600000x1, .i32⟩
  | 85 => ⟨S50000x128, .f32⟩
  | 86 => ⟨S50000x128, .f32⟩
  | 87 => ⟨S1600000x1, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x128, .f32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S_, .f32⟩
  | 116 => ⟨S50000x128, .f32⟩
  | 117 => ⟨S1600000x1, .i32⟩
  | 118 => ⟨S50000x128, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x256, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_10 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_c_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_cst_17 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call2_cst : Ref sig .tc := ⟨.hbm, 137, rfl⟩
abbrev main_call2_v0 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S800000_S1600000_d0 : Shape.Concatenates [S800000, S800000] S1600000 0
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S800000x16_S16x32_S800000x32_1_0_0_1_n_n_wf : DotDims.WF S800000x16 S16x32 S800000x32 [1] [0] [0] [1] [] []
  dot_S800000x32_S32x1_S800000x1_1_0_0_1_n_n_wf : DotDims.WF S800000x32 S32x1 S800000x1 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x256_S256x128_S50000x128_1_0_0_1_n_n_wf : DotDims.WF S50000x256 S256x128 S50000x128 [1] [0] [0] [1] [] []

variable [Facts₀]

def dot_S800000x16_S16x32_S800000x32_1_0_0_1_n_n : DotDims S800000x16 S16x32 S800000x32 where
  lhsContracting := [1]
  rhsContracting := [0]
  lhsNonContracting := [0]
  rhsNonContracting := [1]
  lhsBatch := []
  rhsBatch := []
  wf := dot_S800000x16_S16x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.GateValue.lean ====
import proofs.«401487_j41223096107203_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The edge-gate call: what its output array holds

The first pallas_call runs a two-layer perceptron over the edge attributes, 40000 edges at a time, the two weight
arrays and two bias rows held whole: gate = logistic(max(ea · W1 + b1, 0) · W2 + b2). Row block `t` of the output
depends on row block `t` of the attributes only, so the whole output array is that expression edge by edge.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Gate

open Cert.KernelIdeal Cert.KernelIdeal.Gen

/-- Edge `i 0`, attribute `j`. -/
abbrev attrIdx (i : S800000x1.Idx) (j : Fin 16) : S800000x16.Idx := fun a => match a with
  | ⟨0, _⟩ => ⟨(i 0).val, (i 0).isLt⟩
  | ⟨1, _⟩ => ⟨j.val, j.isLt⟩
/-- Row `k`, column `i 1` of the second layer's weights. -/
abbrev w2Idx (i : S800000x1.Idx) (k : Fin 32) : S32x1.Idx := fun a => match a with
  | ⟨0, _⟩ => ⟨k.val, k.isLt⟩
  | ⟨1, _⟩ => ⟨(i 1).val, (i 1).isLt⟩
/-- Entry `i 1` of the second layer's bias. -/
abbrev b2Idx (i : S800000x1.Idx) : S1.Idx := fun a => match a with
  | ⟨0, _⟩ => ⟨(i 1).val, (i 1).isLt⟩

/-- Hidden unit `k` of an edge: max(Σⱼ ea(e,j)·W1(j,k) + b1(k), 0). -/
def hidden (ea : Vec Ideal S800000x16 .f32) (w1 : Vec Ideal S16x32 .f32) (b1 : Vec Ideal S32 .f32) (i : S800000x1.Idx) (k : Fin 32) : EReal :=
  max ((∑ j : Fin 16, ea (attrIdx i j) * w1 (ix2 j k)) + b1 (ix1 k)) (Ideal.ofBits .f32 0x00000000#32)

/-- logistic(Σₖ hidden(e,k)·W2(k,·) + b2), edge by edge. -/
def out (ea : Vec Ideal S800000x16 .f32) (w1 : Vec Ideal S16x32 .f32) (b1 : Vec Ideal S32 .f32) (w2 : Vec Ideal S32x1 .f32) (b2 : Vec Ideal S1 .f32) :
    Vec Ideal S800000x1 .f32 :=
  fun i => Ideal.logistic ((∑ k : Fin 32, hidden ea w1 b1 i k * w2 (w2Idx i k)) + b2 (b2Idx i))

theorem hz : (![0, 0] : Fin 2 → Nat) = fun _ => 0 := funext fun a => by fin_cases a <;> rfl
theorem hz1 : (![0] : Fin 1 → Nat) = fun _ => 0 := funext fun a => by fin_cases a; rfl

/-! ## The body's stored value at an entry of the block -/

theorem a_lhs_0 (i : S40000x32.Idx) (q : dot_S40000x16_S16x32_S40000x32_1_0_0_1_n_n.contr.Idx) :
    (dot_S40000x16_S16x32_S40000x32_1_0_0_1_n_n.lhsIdx i q 0).val = (i 0).val := by
  unfold DotDims.lhsIdx
  rw [dif_neg (show ¬(0 : Fin S40000x16.rank) ∈ dot_S40000x16_S16x32_S40000x32_1_0_0_1_n_n.lhsBatch by decide), dif_pos (show (0 : Fin S40000x16.rank) ∈ dot_S40000x16_S16x32_S40000x32_1_0_0_1_n_n.lhsNonContracting by decide)]
  rfl
theorem a_lhs_1 (i : S40000x32.Idx) (q : dot_S40000x16_S16x32_S40000x32_1_0_0_1_n_n.contr.Idx) :
    (dot_S40000x16_S16x32_S40000x32_1_0_0_1_n_n.lhsIdx i q 1).val = (q ⟨0, by decide⟩).val :=
  dot_S40000x16_S16x32_S40000x32_1_0_0_1_n_n.lhsIdx_val_of_single rfl i q
theorem a_rhs_0 (i : S40000x32.Idx) (q : dot_S40000x16_S16x32_S40000x32_1_0_0_1_n_n.contr.Idx) :
    (dot_S40000x16_S16x32_S40000x32_1_0_0_1_n_n.rhsIdx i q 0).val = (q ⟨0, by decide⟩).val :=
  dot_S40000x16_S16x32_S40000x32_1_0_0_1_n_n.rhsIdx_val_of_single rfl i q
theorem a_rhs_1 (i : S40000x32.Idx) (q : dot_S40000x16_S16x32_S40000x32_1_0_0_1_n_n.contr.Idx) :
    (dot_S40000x16_S16x32_S40000x32_1_0_0_1_n_n.rhsIdx i q 1).val = (i 1).val := by
  unfold DotDims.rhsIdx
  rw [dif_neg (show ¬(1 : Fin S16x32.rank) ∈ dot_S40000x16_S16x32_S40000x32_1_0_0_1_n_n.rhsBatch by decide), dif_pos (show (1 : Fin S16x32.rank) ∈ dot_S40000x16_S16x32_S40000x32_1_0_0_1_n_n.rhsNonContracting by decide)]
  rfl

theorem b_lhs_0 (i : S40000x1.Idx) (q : dot_S40000x32_S32x1_S40000x1_1_0_0_1_n_n.contr.Idx) :
    (dot_S40000x32_S32x1_S40000x1_1_0_0_1_n_n.lhsIdx i q 0).val = (i 0).val := by
  unfold DotDims.lhsIdx
  rw [dif_neg (show ¬(0 : Fin S40000x32.rank) ∈ dot_S40000x32_S32x1_S40000x1_1_0_0_1_n_n.lhsBatch by decide), dif_pos (show (0 : Fin S40000x32.rank) ∈ dot_S40000x32_S32x1_S40000x1_1_0_0_1_n_n.lhsNonContracting by decide)]
  rfl
theorem b_lhs_1 (i : S40000x1.Idx) (q : dot_S40000x32_S32x1_S40000x1_1_0_0_1_n_n.contr.Idx) :
    (dot_S40000x32_S32x1_S40000x1_1_0_0_1_n_n.lhsIdx i q 1).val = (q ⟨0, by decide⟩).val :=
  dot_S40000x32_S32x1_S40000x1_1_0_0_1_n_n.lhsIdx_val_of_single rfl i q
theorem b_rhs_0 (i : S40000x1.Idx) (q : dot_S40000x32_S32x1_S40000x1_1_0_0_1_n_n.contr.Idx) :
    (dot_S40000x32_S32x1_S40000x1_1_0_0_1_n_n.rhsIdx i q 0).val = (q ⟨0, by decide⟩).val :=
  dot_S40000x32_S32x1_S40000x1_1_0_0_1_n_n.rhsIdx_val_of_single rfl i q
theorem b_rhs_1 (i : S40000x1.Idx) (q : dot_S40000x32_S32x1_S40000x1_1_0_0_1_n_n.contr.Idx) :
    (dot_S40000x32_S32x1_S40000x1_1_0_0_1_n_n.rhsIdx i q 1).val = (i 1).val := by
  unfold DotDims.rhsIdx
  rw [dif_neg (show ¬(1 : Fin S32x1.rank) ∈ dot_S40000x32_S32x1_S40000x1_1_0_0_1_n_n.rhsBatch by decide), dif_pos (show (1 : Fin S32x1.rank) ∈ dot_S40000x32_S32x1_S40000x1_1_0_0_1_n_n.rhsNonContracting by decide)]
  rfl

/-- A 40000 × 16 block times the 16 × 32 weights into a zero accumulator, at entry (p, q). -/
theorem mm1_apply (x : FVec Ideal S40000x16 .f32) (y : FVec Ideal S16x32 .f32) (p : Fin 40000) (q : Fin 32) :
    FloatOps.matmul (F := Ideal) dot_S40000x16_S16x32_S40000x32_1_0_0_1_n_n none x y (constant (F := Ideal) S40000x32 .f32 0x00000000#32) (ix2 p q) = ∑ k : Fin 16, x (ix2 p k) * y (ix2 k q) := by
  rw [Ideal.matmul_constant_zero_apply, ← Equiv.sum_comp (ValueIdx.contrEquiv1 dot_S40000x16_S16x32_S40000x32_1_0_0_1_n_n 16 rfl rfl).symm]
  refine Finset.sum_congr rfl fun k _ => ?_
  have hk := ValueIdx.contrEquiv1_symm_val dot_S40000x16_S16x32_S40000x32_1_0_0_1_n_n 16 rfl rfl k
  have el : dot_S40000x16_S16x32_S40000x32_1_0_0_1_n_n.lhsIdx (ix2 p q) ((ValueIdx.contrEquiv1 dot_S40000x16_S16x32_S40000x32_1_0_0_1_n_n 16 rfl rfl).symm k) = ix2 p k := funext fun a => Fin.ext (by
    match a with
    | ⟨0, _⟩ => exact a_lhs_0 _ _
    | ⟨1, _⟩ => exact (a_lhs_1 _ _).trans hk)
  have er : dot_S40000x16_S16x32_S40000x32_1_0_0_1_n_n.rhsIdx (ix2 p q) ((ValueIdx.contrEquiv1 dot_S40000x16_S16x32_S40000x32_1_0_0_1_n_n 16 rfl rfl).symm k) = ix2 k q := funext fun a => Fin.ext (by
    match a with
    | ⟨0, _⟩ => exact (a_rhs_0 _ _).trans hk
    | ⟨1, _⟩ => exact a_rhs_1 _ _)
  rw [el, er]

/-- A 40000 × 32 array times the 32 × 1 weights into a zero accumulator, at entry (p, q). -/
theorem mm2_apply (x : FVec Ideal S40000x32 .f32) (y : FVec Ideal S32x1 .f32) (p : Fin 40000) (q : Fin 1) :
    FloatOps.matmul (F := Ideal) dot_S40000x32_S32x1_S40000x1_1_0_0_1_n_n none x y (constant (F := Ideal) S40000x1 .f32 0x00000000#32) (ix2 p q) = ∑ k : Fin 32, x (ix2 p k) * y (ix2 k q) := by
  rw [Ideal.matmul_constant_zero_apply, ← Equiv.sum_comp (ValueIdx.contrEquiv1 dot_S40000x32_S32x1_S40000x1_1_0_0_1_n_n 32 rfl rfl).symm]
  refine Finset.sum_congr rfl fun k _ => ?_
  have hk := ValueIdx.contrEquiv1_symm_val dot_S40000x32_S32x1_S40000x1_1_0_0_1_n_n 32 rfl rfl k
  have el : dot_S40000x32_S32x1_S40000x1_1_0_0_1_n_n.lhsIdx (ix2 p q) ((ValueIdx.contrEquiv1 dot_S40000x32_S32x1_S40000x1_1_0_0_1_n_n 32 rfl rfl).symm k) = ix2 p k := funext fun a => Fin.ext (by
    match a with
    | ⟨0, _⟩ => exact b_lhs_0 _ _
    | ⟨1, _⟩ => exact (b_lhs_1 _ _).trans hk)
  have er : dot_S40000x32_S32x1_S40000x1_1_0_0_1_n_n.rhsIdx (ix2 p q) ((ValueIdx.contrEquiv1 dot_S40000x32_S32x1_S40000x1_1_0_0_1_n_n 32 rfl rfl).symm k) = ix2 k q := funext fun a => Fin.ext (by
    match a with
    | ⟨0, _⟩ => exact (b_rhs_0 _ _).trans hk
    | ⟨1, _⟩ => exact b_rhs_1 _ _)
  rw [el, er]

/-- The body's stored value at entry (p, u) of the block. -/
theorem pay_apply (v0 : Vec Ideal S40000x16 .f32) (v1 : Vec Ideal S16x32 .f32) (v3 : Vec Ideal S32 .f32) (v9 : Vec Ideal S32x1 .f32) (v11 : Vec Ideal S1 .f32)
    (p : Fin 40000) (u : Fin 1) :
    k0_pay1 (F := Ideal) v0 v1 v3 v9 v11 (ix2 p u)
      = Ideal.logistic ((∑ k : Fin 32, max ((∑ j : Fin 16, v0 (ix2 p j) * v1 (ix2 j k)) + v3 (ix1 k)) (Ideal.ofBits .f32 0x00000000#32) * v9 (ix2 k u)) + v11 (ix1 u)) := by
  unfold k0_pay1
  simp only [matmul]
  rw [show ∀ (x : FVec Ideal S40000x1 .f32) (i : S40000x1.Idx), logistic x i = Ideal.logistic (x i) from fun _ _ => rfl,
    ValueIdx.addf_apply, mm2_apply, ValueIdx.broadcastTo_1b_ab_apply, ValueIdx.shapeCast_a_1a_apply]
  simp only [ValueIdx.maximumf_apply, ValueIdx.addf_apply, mm1_apply, ValueIdx.broadcastTo_1b_ab_apply, ValueIdx.shapeCast_a_1a_apply, ValueIdx.broadcast_apply]
  rfl

/-! ## From the blocks to the array -/

variable (V : (c : Dev nD) → (b : Ref sig .tc) → Buf (Elt Ideal) ((c : Thread nD τ).loc b))

set_option maxHeartbeats 4000000 in
/-- The printed index maps over the grid: the attribute window and the output sit at row block `t`, column block 0; the weights and the biases at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of `out` of the five arrays as the call finds them. -/
theorem flushed_eq (c : Dev nD) (t : Fin cfg0.N) :
    (dat0 (F := Ideal) V c).flushed 5 t = ((cfg0.win 5).blk t).view.read (Elt Ideal)
      (out (V c main_arg2) (V c main_arg5) (V c main_arg6) (V c main_arg7) (V c main_arg8)) := by
  show (cfg0.win 5).cut (grid0.coords t) ((dat0 V c).after 5 t) = _
  rw [after0_5]
  unfold out0_5
  rw [View.canon_unit_zero hz]
  simp only [View.ld_unit_zero (S := S40000x16) hz, View.ld_unit_zero (S := S16x32) hz, View.ld_unit_zero (S := S32) hz1,
    View.ld_unit_zero (S := S32x1) hz, View.ld_unit_zero (S := S1) hz1]
  obtain ⟨e0, e1, e2, e3, e4, e5, e6, e7, e8, e9⟩ := idx_facts t
  funext j
  obtain ⟨p, u, rfl⟩ : ∃ (p : Fin 40000) (u : Fin 1), j = ix2 p u := ⟨j 0, j 1, eq_ix2 j⟩
  show k0_pay1 (iblk0 V c 0 t) (iblk0 V c 1 t) (iblk0 V c 2 t) (iblk0 V c 3 t) (iblk0 V c 4 t) (ix2 p u)
    = out (V c main_arg2) (V c main_arg5) (V c main_arg6) (V c main_arg7) (V c main_arg8) (((cfg0.win 5).blk t).view.emb (ix2 p u))
  refine (pay_apply _ _ _ _ _ p u).trans ?_
  unfold out hidden
  have hEa : ∀ j : Fin 16, iblk0 V c 0 t (ix2 p j) = V c main_arg2 (attrIdx (((cfg0.win 5).blk t).view.emb (ix2 p u)) j) := fun j => by
    show V c main_arg2 (((cfg0.win 0).blk t).view.emb (ix2 p j)) = _
    refine congrArg (V c main_arg2) ?_
    funext a; apply Fin.ext
    match a with
    | ⟨0, _⟩ => show win0_0.index t (0 : Fin 2) * 40000 + 1 * p.val = win0_5.index t (0 : Fin 2) * 40000 + 1 * p.val; omega
    | ⟨1, _⟩ => show win0_0.index t (1 : Fin 2) * 16 + 1 * j.val = j.val; omega
  have hW1 : ∀ (j : Fin 16) (k : Fin 32), iblk0 V c 1 t (ix2 j k) = V c main_arg5 (ix2 j k) := fun j k => by
    show V c main_arg5 (((cfg0.win 1).blk t).view.emb (ix2 j k)) = _
    refine congrArg (V c main_arg5) ?_
    funext a; apply Fin.ext
    match a with
    | ⟨0, _⟩ => show win0_1.index t (0 : Fin 2) * 16 + 1 * j.val = j.val; omega
    | ⟨1, _⟩ => show win0_1.index t (1 : Fin 2) * 32 + 1 * k.val = k.val; omega
  have hB1 : ∀ k : Fin 32, iblk0 V c 2 t (ix1 k) = V c main_arg6 (ix1 k) := fun k => by
    show V c main_arg6 (((cfg0.win 2).blk t).view.emb (ix1 k)) = _
    refine congrArg (V c main_arg6) ?_
    funext a; apply Fin.ext
    match a with
    | ⟨0, _⟩ => show win0_2.index t (0 : Fin 1) * 32 + 1 * k.val = k.val; omega
  have hW2 : ∀ k : Fin 32, iblk0 V c 3 t (ix2 k u) = V c main_arg7 (w2Idx (((cfg0.win 5).blk t).view.emb (ix2 p u)) k) := fun k => by
    show V c main_arg7 (((cfg0.win 3).blk t).view.emb (ix2 k u)) = _
    refine congrArg (V c main_arg7) ?_
    funext a; apply Fin.ext
    match a with
    | ⟨0, _⟩ => show win0_3.index t (0 : Fin 2) * 32 + 1 * k.val = k.val; omega
    | ⟨1, _⟩ => show win0_3.index t (1 : Fin 2) * 1 + 1 * u.val = win0_5.index t (1 : Fin 2) * 1 + 1 * u.val; omega
  have hB2 : iblk0 V c 4 t (ix1 u) = V c main_arg8 (b2Idx (((cfg0.win 5).blk t).view.emb (ix2 p u))) := by
    show V c main_arg8 (((cfg0.win 4).blk t).view.emb (ix1 u)) = _
    refine congrArg (V c main_arg8) ?_
    funext a; apply Fin.ext
    match a with
    | ⟨0, _⟩ => show win0_4.index t (0 : Fin 1) * 1 + 1 * u.val = win0_5.index t (1 : Fin 2) * 1 + 1 * u.val; omega
  simp only [hEa, hW1, hB1, hW2, hB2]

/-- An index of the output array is in point `t`'s block iff each coordinate is in the block's range on its axis. -/
theorem mem_blk (t : Fin cfg0.N) (i : S800000x1.Idx) :
    i ∈ ((cfg0.win 5).blk t).view.set ↔ ∀ a : Fin 2, win0_5.index t a * S40000x1.size a ≤ (i a).val ∧ (i a).val < win0_5.index t a * S40000x1.size a + S40000x1.size a := by
  show i ∈ ((View.whole main_v0).slice (win0_5.rect t)).set ↔ _
  rw [View.set_slice_whole, Rect.mem_set_unit]
  exact Iff.rfl

/-- Every entry of the output array lies in the block of the point its row falls in. -/
theorem cover (i : S800000x1.Idx) : ∃ t : Fin cfg0.N, (cfg0.win 5).flush t = true ∧ i ∈ ((cfg0.win 5).blk t).view.set := by
  have hi0 : (i 0).val < 800000 := (i 0).isLt
  have hi1 : (i 1).val < 1 := (i 1).isLt
  have hN : cfg0.N = 20 := N_0
  let t : Fin cfg0.N := ⟨(i 0).val / 40000, by rw [hN]; omega⟩
  obtain ⟨-, -, -, -, -, -, -, -, e8, e9⟩ := idx_facts t
  have e8' : win0_5.index t (0 : Fin 2) = (i 0).val / 40000 := e8
  refine ⟨t, flush0_5 t, ?_⟩
  rw [mem_blk]
  intro a
  match a with
  | ⟨0, _⟩ => show win0_5.index t (0 : Fin 2) * 40000 ≤ (i 0).val ∧ (i 0).val < win0_5.index t (0 : Fin 2) * 40000 + 40000; omega
  | ⟨1, _⟩ => show win0_5.index t (1 : Fin 2) * 1 ≤ (i 1).val ∧ (i 1).val < win0_5.index t (1 : Fin 2) * 1 + 1; omega

/-- After the call the output array is `out` of the five arrays the call found. -/
theorem final (c : Dev nD) : (dat0 (F := Ideal) V c).arrAt 5 cfg0.N
    = out (V c main_arg2) (V c main_arg5) (V c main_arg6) (V c main_arg7) (V c main_arg8) :=
  (dat0 V c).arrAt_eq_of_cover 5 _ (fun t _ => flushed_eq V c t) cover

end Cert.KernelIdeal.Gate

end
-- ==== Proof.ProjValue.lean ====
import proofs.«401487_j41223096107203_1_alg».proof.Proof.Gen.KernelIdeal.Frame
import Idealize.ShloMosaic.Lib.Pipeline.Value
import Idealize.ShloMosaic.Lib.ValueIdx
import Idealize.ShloMosaic.PureOps.Ideal.Laws

/-!
# The projection call: what its output array holds

The second pallas_call multiplies the node features, 5000 rows at a time, by one 128 × 256 weight array held whole.
Row block `t` of the output is the product of row block `t` of the features with the weights, so the whole output
array is the matrix product: entry (r, q) is the sum over k of feature (r, k) times weight (k, q).
-/

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen

/-- Row `i 0`, column `k` of the features. -/
abbrev featIdx (i : S50000x256.Idx) (k : Fin 128) : S50000x128.Idx := fun a => match a with
  | ⟨0, _⟩ => ⟨(i 0).val, (i 0).isLt⟩
  | ⟨1, _⟩ => ⟨k.val, k.isLt⟩
/-- Row `k`, column `i 1` of the weights. -/
abbrev wIdx (i : S50000x256.Idx) (k : Fin 128) : S128x256.Idx := fun a => match a with
  | ⟨0, _⟩ => ⟨k.val, k.isLt⟩
  | ⟨1, _⟩ => ⟨(i 1).val, (i 1).isLt⟩

/-- The matrix product of the features with the weights, entry by entry. -/
def prod (x : Vec Ideal S50000x128 .f32) (w : Vec Ideal S128x256 .f32) : Vec Ideal S50000x256 .f32 :=
  fun i => ∑ k : Fin 128, x (featIdx i k) * w (wIdx i k)

/-- The same two index maps inside one block. -/
abbrev bfeatIdx (j : S5000x256.Idx) (k : Fin 128) : S5000x128.Idx := fun a => match a with
  | ⟨0, _⟩ => ⟨(j 0).val, (j 0).isLt⟩
  | ⟨1, _⟩ => ⟨k.val, k.isLt⟩
abbrev bwIdx (j : S5000x256.Idx) (k : Fin 128) : S128x256.Idx := fun a => match a with
  | ⟨0, _⟩ => ⟨k.val, k.isLt⟩
  | ⟨1, _⟩ => ⟨(j 1).val, (j 1).isLt⟩

theorem hz : (![0, 0] : Fin 2 → Nat) = fun _ => 0 := funext fun a => by fin_cases a <;> rfl

/-! ## The body's product at an entry of the block -/

theorem lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's stored value at entry `j` of the block: the sum over `k` of the feature block's (j 0, k) times the weights' (k, j 1). -/
theorem pay_apply (x0 : Vec Ideal S5000x128 .f32) (x1 : Vec Ideal S128x256 .f32) (j : S5000x256.Idx) :
    k1_pay1 (F := Ideal) x0 x1 j = ∑ k : Fin 128, x0 (bfeatIdx j k) * x1 (bwIdx j k) := by
  unfold k1_pay1
  simp only [matmul, shapeCast_self]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = bfeatIdx j k := funext fun a => Fin.ext (by
    match a with
    | ⟨0, _⟩ => exact lhs_0 _ _
    | ⟨1, _⟩ => exact (lhs_1 _ _).trans hk)
  have er : dot_S5000x128_S128x256_S5000x256_1_0_0_1_n_n.rhsIdx j ((ValueIdx.contrEquiv1 dot_S5000x128_S128x256_S5000x256_1_0_0_1_n_n 128 rfl rfl).symm k) = bwIdx j k := funext fun a => Fin.ext (by
    match a with
    | ⟨0, _⟩ => exact (rhs_0 _ _).trans hk
    | ⟨1, _⟩ => exact rhs_1 _ _)
  rw [el, er]

/-! ## From the blocks to the array -/

variable (V : (c : Dev nD) → (b : Ref sig .tc) → Buf (Elt Ideal) ((c : Thread nD τ).loc b))

/-- The printed index maps over the grid: the feature and output windows sit at row block `t`, column block 0; the weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the matrix product of the two arrays as the call finds them. -/
theorem flushed_eq (c : Dev nD) (t : Fin cfg1.N) :
    (dat1 (F := Ideal) V c).flushed 2 t = ((cfg1.win 2).blk t).view.read (Elt Ideal) (prod (V c main_arg0) (V c main_v32)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x256) hz]
  obtain ⟨e0, e1, e2, e3, e4, e5⟩ := idx_facts t
  funext j
  show k1_pay1 (iblk1 V c 0 t) (iblk1 V c 1 t) j = prod (V c main_arg0) (V c main_v32) (((cfg1.win 2).blk t).view.emb j)
  refine (pay_apply _ _ j).trans ?_
  unfold prod
  refine Finset.sum_congr rfl fun k _ => ?_
  have h0 : iblk1 V c 0 t (bfeatIdx j k) = V c main_arg0 (featIdx (((cfg1.win 2).blk t).view.emb j) k) := by
    show V c main_arg0 (((cfg1.win 0).blk t).view.emb (bfeatIdx j k)) = _
    refine congrArg (V c main_arg0) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (bwIdx j k) = V c main_v32 (wIdx (((cfg1.win 2).blk t).view.emb j) k) := by
    show V c main_v32 (((cfg1.win 1).blk t).view.emb (bwIdx j k)) = _
    refine congrArg (V c main_v32) ?_
    funext a; apply Fin.ext
    match a with
    | ⟨0, _⟩ => show win1_1.index t (0 : Fin 2) * 128 + 1 * k.val = k.val; omega
    | ⟨1, _⟩ => show win1_1.index t (1 : Fin 2) * 256 + 1 * (j 1).val = win1_2.index t (1 : Fin 2) * 256 + 1 * (j 1).val; omega
  rw [h0, h1]

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v33).slice (win1_2.rect t)).set ↔ _
  rw [View.set_slice_whole, Rect.mem_set_unit]
  exact Iff.rfl

/-- Every entry of the output array lies in the block of the point its row falls in. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  let t : Fin cfg1.N := ⟨(i 0).val / 5000, by rw [hN]; omega⟩
  obtain ⟨-, -, -, -, e4, e5⟩ := idx_facts t
  have e4' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the call the output array is the matrix product of the two arrays the call found. -/
theorem final (c : Dev nD) : (dat1 (F := Ideal) V c).arrAt 2 cfg1.N = prod (V c main_arg0) (V c main_v32) :=
  (dat1 V c).arrAt_eq_of_cover 2 (prod (V c main_arg0) (V c main_v32)) (fun t _ => flushed_eq V c t) cover

end Cert.KernelIdeal.Proj

end
-- ==== Proof.CombValue.lean ====
import proofs.«401487_j41223096107203_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The combine call: what its output array holds

The third pallas_call takes the aggregated features and the node features, 5000 rows at a time, two 128 × 128 weight
arrays and a bias row held whole, and stores max(agg · Wa + h · Wh + b, 0). Row block `t` of the output depends on row
block `t` of the two feature arrays only, so the whole output array is that expression entry by entry:
entry (r, q) is max(Σₖ agg(r,k)·Wa(k,q) + Σₖ h(r,k)·Wh(k,q) + b(q), 0).
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Comb

open Cert.KernelIdeal Cert.KernelIdeal.Gen

/-- Row `i 0`, column `k` of a feature array. -/
abbrev rowIdx (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of a weight array. -/
abbrev colIdx (i : S50000x128.Idx) (k : Fin 128) : S128x128.Idx := fun a => match a with
  | ⟨0, _⟩ => ⟨k.val, k.isLt⟩
  | ⟨1, _⟩ => ⟨(i 1).val, (i 1).isLt⟩
/-- Entry `i 1` of the bias row. -/
abbrev biasIdx (i : S50000x128.Idx) : S128.Idx := fun a => match a with
  | ⟨0, _⟩ => ⟨(i 1).val, (i 1).isLt⟩

/-- max(agg · Wa + h · Wh + b, 0), entry by entry. -/
def out (agg h : Vec Ideal S50000x128 .f32) (wa wh : Vec Ideal S128x128 .f32) (b : Vec Ideal S128 .f32) : Vec Ideal S50000x128 .f32 :=
  fun i => max (((∑ k : Fin 128, agg (rowIdx i k) * wa (colIdx i k)) + (∑ k : Fin 128, h (rowIdx i k) * wh (colIdx i k))) + b (biasIdx i))
    (Ideal.ofBits .f32 0x00000000#32)

theorem hz : (![0, 0] : Fin 2 → Nat) = fun _ => 0 := funext fun a => by fin_cases a <;> rfl
theorem hz1 : (![0] : Fin 1 → Nat) = fun _ => 0 := funext fun a => by fin_cases a; rfl

/-! ## The body's stored value at an entry of the block -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 array into a zero accumulator, at entry (p, q): the sum over `k` of (p, k) times (k, q). -/
theorem mm_apply (x : FVec Ideal S5000x128 .f32) (y : FVec Ideal S128x128 .f32) (p : Fin 5000) (q : Fin 128) :
    FloatOps.matmul (F := Ideal) dot_S5000x128_S128x128_S5000x128_1_0_0_1_n_n none x y (constant (F := Ideal) S5000x128 .f32 0x00000000#32) (ix2 p q) = ∑ k : Fin 128, x (ix2 p k) * y (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's stored value at entry (p, q) of the block. -/
theorem pay_apply (v0 v5 : Vec Ideal S5000x128 .f32) (v2 v6 : Vec Ideal S128x128 .f32) (v10 : Vec Ideal S128 .f32) (p : Fin 5000) (q : Fin 128) :
    k2_pay1 (F := Ideal) v0 v2 v5 v6 v10 (ix2 p q)
      = max (((∑ k : Fin 128, v0 (ix2 p k) * v2 (ix2 k q)) + (∑ k : Fin 128, v5 (ix2 p k) * v6 (ix2 k q))) + v10 (ix1 q)) (Ideal.ofBits .f32 0x00000000#32) := by
  unfold k2_pay1
  simp only [matmul, shapeCast_self]
  rw [ValueIdx.maximumf_apply, ValueIdx.addf_apply, ValueIdx.addf_apply, mm_apply, mm_apply, ValueIdx.broadcastTo_1b_ab_apply, ValueIdx.shapeCast_a_1a_apply]
  rfl

/-! ## From the blocks to the array -/

variable (V : (c : Dev nD) → (b : Ref sig .tc) → Buf (Elt Ideal) ((c : Thread nD τ).loc b))

set_option maxHeartbeats 4000000 in
/-- The printed index maps over the grid: the two feature windows and the output sit at row block `t`, column block 0; the weights and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

set_option maxHeartbeats 2000000 in
/-- What point `t` writes back is block `t` of `out` of the five arrays as the call finds them. -/
theorem flushed_eq (c : Dev nD) (t : Fin cfg2.N) :
    (dat2 (F := Ideal) V c).flushed 5 t = ((cfg2.win 5).blk t).view.read (Elt Ideal)
      (out (V c main_v81) (V c main_arg0) (V c main_v82) (V c main_v83) (V c main_arg11)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  show k2_pay1 (iblk2 V c 0 t) (iblk2 V c 2 t) (iblk2 V c 1 t) (iblk2 V c 3 t) (iblk2 V c 4 t) (ix2 p q)
    = out (V c main_v81) (V c main_arg0) (V c main_v82) (V c main_v83) (V c main_arg11) (((cfg2.win 5).blk t).view.emb (ix2 p q))
  refine (pay_apply (iblk2 V c 0 t) (iblk2 V c 1 t) (iblk2 V c 2 t) (iblk2 V c 3 t) (iblk2 V c 4 t) p q).trans ?_
  unfold out
  have hA : ∀ k : Fin 128, iblk2 V c 0 t (ix2 p k) = V c main_v81 (rowIdx (((cfg2.win 5).blk t).view.emb (ix2 p q)) k) := fun k => by
    show V c main_v81 (((cfg2.win 0).blk t).view.emb (ix2 p k)) = _
    refine congrArg (V c main_v81) ?_
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hH : ∀ k : Fin 128, iblk2 V c 1 t (ix2 p k) = V c main_arg0 (rowIdx (((cfg2.win 5).blk t).view.emb (ix2 p q)) k) := fun k => by
    show V c main_arg0 (((cfg2.win 1).blk t).view.emb (ix2 p k)) = _
    refine congrArg (V c main_arg0) ?_
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hWa : ∀ k : Fin 128, iblk2 V c 2 t (ix2 k q) = V c main_v82 (colIdx (((cfg2.win 5).blk t).view.emb (ix2 p q)) k) := fun k => by
    show V c main_v82 (((cfg2.win 2).blk t).view.emb (ix2 k q)) = _
    refine congrArg (V c main_v82) ?_
    funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have hWh : ∀ k : Fin 128, iblk2 V c 3 t (ix2 k q) = V c main_v83 (colIdx (((cfg2.win 5).blk t).view.emb (ix2 p q)) k) := fun k => by
    show V c main_v83 (((cfg2.win 3).blk t).view.emb (ix2 k q)) = _
    refine congrArg (V c main_v83) ?_
    funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  have hB : iblk2 V c 4 t (ix1 q) = V c main_arg11 (biasIdx (((cfg2.win 5).blk t).view.emb (ix2 p q))) := by
    show V c main_arg11 (((cfg2.win 4).blk t).view.emb (ix1 q)) = _
    refine congrArg (V c main_arg11) ?_
    funext a; apply Fin.ext
    match a with
    | ⟨0, _⟩ => show win2_4.index t (0 : Fin 1) * 128 + 1 * q.val = win2_5.index t (1 : Fin 2) * 128 + 1 * q.val; omega
  simp only [hA, hH, hWa, hWh, hB]

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v84).slice (win2_5.rect t)).set ↔ _
  rw [View.set_slice_whole, Rect.mem_set_unit]
  exact Iff.rfl

/-- Every entry of the output array lies in the block of the point its row falls in. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, e9, e10⟩ := idx_facts t
  have e9' : win2_5.index t (0 : Fin 2) = (i 0).val / 5000 := e9
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the call the output array is `out` of the five arrays the call found. -/
theorem final (c : Dev nD) : (dat2 (F := Ideal) V c).arrAt 5 cfg2.N
    = out (V c main_v81) (V c main_arg0) (V c main_v82) (V c main_v83) (V c main_arg11) :=
  (dat2 V c).arrAt_eq_of_cover 5 _ (fun t _ => flushed_eq V c t) cover

end Cert.KernelIdeal.Comb

end
-- ==== Proof.GateBridge.lean ====
import proofs.«401487_j41223096107203_1_alg».proof.Proof.GateValue
import proofs.«401487_j41223096107203_1_alg».proof.Proof.Gen.ReferenceIdeal.Read
import Idealize.ShloMosaic.Lib.Pipeline.Value

/-!
# The edge gate: the kernel's array, flattened, is the reference's gate stage

The reference computes the gate on the host: two `dot_general`s with their biases, a maximum with zero between them,
a reshape of the [800000, 1] logits to [800000], and jax's expansion of the logistic function, 1 / (1 + exp(−x)).
At the ideal instance that expansion is the logistic function the kernel applies, and the two products are the same
sums, so edge by edge the reference's stage is the kernel's output array read through the same reshape.
-/

set_option maxRecDepth 16384

noncomputable section

open Idealize.ShloMosaic Idealize.ShloMosaic.TcCoe Idealize.SL.Sem
open Idealize.ShloMosaic.ValueIdx

namespace Cert.KernelIdeal.GateBridge

open Cert.KernelIdeal Cert.KernelIdeal.Gen
open Cert.KernelIdeal.Gate (attrIdx w2Idx b2Idx)
open Cert.ReferenceIdeal.Read (val_main_v15 val_main_v15_apply val_main_v14_apply val_main_cst_0_apply val_main_v13_apply val_main_v12_apply val_main_cst_apply
  val_main_v11_apply val_main_v10_apply val_main_v9_apply val_main_v8_apply val_main_v5_apply val_main_v7_apply val_main_v6_apply val_main_v4_apply
  val_main_v3_apply val_main_v0_apply val_main_v2_apply val_main_v1_apply val_main_call0_v0_apply val_main_call0_cst_apply
  idx_main_v9 lidx_main_v0 ridx_main_v0 lidx_main_v5 ridx_main_v5 idx_main_v1 idx_main_v2 idx_main_v6 idx_main_v7)

/-- The word of 1.0 denotes 1. -/
theorem one_bits : Ideal.ofBits .f32 0x3F800000#32 = 1 := by
  simp [Ideal.ofBits, Ideal.ieee, -EReal.coe_mul]; norm_num

set_option maxHeartbeats 2000000 in
/-- The kernel's gate array cast to one axis is the reference's gate stage. -/
theorem gate_eq (x2 x5 x6 x7 x8) :
    shapeCast S800000 (Cert.KernelIdeal.Gate.out x2 x5 x6 x7 x8) shapeCasts_S800000x1_S800000 = val_main_v15 (F := Ideal) x2 x5 x6 x7 x8 := by
  funext e
  have hc : shapeCast S800000 (Cert.KernelIdeal.Gate.out x2 x5 x6 x7 x8) shapeCasts_S800000x1_S800000 e
      = Cert.KernelIdeal.Gate.out x2 x5 x6 x7 x8 (idx_main_v9 e) :=
    shapeCast_apply _ shapeCasts_S800000x1_S800000 e (idx_main_v9 e)
      (by rewrite [Shape.rowMajor_val_two, Shape.rowMajor_val_one]; have h0 : (e 0).val < 800000 := (e 0).isLt; show ((e 0).val) / 1 * 1 + 0 = (e 0).val; omega)
  rw [hc, val_main_v15_apply, val_main_v14_apply, val_main_cst_0_apply, val_main_v13_apply, val_main_v12_apply, val_main_cst_apply,
    val_main_v11_apply, val_main_v10_apply, val_main_v9_apply, val_main_v8_apply, val_main_v5_apply, val_main_v7_apply, val_main_v6_apply]
  simp only [val_main_v4_apply, val_main_v3_apply, val_main_v0_apply, val_main_v2_apply, val_main_v1_apply, val_main_call0_v0_apply,
    val_main_call0_cst_apply]
  unfold Cert.KernelIdeal.Gate.out Cert.KernelIdeal.Gate.hidden
  have e1 : ∀ (k : Fin 32) (j : Fin 16), lidx_main_v0 (lidx_main_v5 (idx_main_v9 e) k) j = attrIdx (idx_main_v9 e) j :=
    fun k j => funext fun a => by match a with | ⟨0, _⟩ => rfl | ⟨1, _⟩ => rfl
  have e2 : ∀ (k : Fin 32) (j : Fin 16), ridx_main_v0 (lidx_main_v5 (idx_main_v9 e) k) j = ix2 j k :=
    fun k j => funext fun a => by match a with | ⟨0, _⟩ => rfl | ⟨1, _⟩ => rfl
  have e3 : ∀ k : Fin 32, idx_main_v1 (idx_main_v2 (lidx_main_v5 (idx_main_v9 e) k)) = ix1 k :=
    fun k => funext fun a => by match a with | ⟨0, _⟩ => rfl
  have e4 : ∀ k : Fin 32, ridx_main_v5 (idx_main_v9 e) k = w2Idx (idx_main_v9 e) k :=
    fun k => funext fun a => by match a with | ⟨0, _⟩ => rfl | ⟨1, _⟩ => rfl
  have e5 : idx_main_v6 (idx_main_v7 (idx_main_v9 e)) = b2Idx (idx_main_v9 e) :=
    funext fun a => by match a with | ⟨0, _⟩ => rfl
  simp only [e1, e2, e3, e4, e5, Ideal.ofBits_def, one_bits]
  rfl

end Cert.KernelIdeal.GateBridge

end
-- ==== Proof.ProjBridge.lean ====
import proofs.«401487_j41223096107203_1_alg».proof.Proof.ProjValue
import proofs.«401487_j41223096107203_1_alg».proof.Proof.Gen.ReferenceIdeal.Read
import Idealize.ShloMosaic.Lib.Pipeline.Value

/-!
# The projection: each half of the kernel's product is one of the reference's two products

The kernel multiplies the features by the two weight arrays laid side by side and slices the product's columns in two;
the reference multiplies by each weight array by itself. Column `q` of the side-by-side array is column `q` of the first
weights for `q < 128` and column `q − 128` of the second otherwise, so entry by entry each slice is the same sum over `k`.
-/

set_option maxRecDepth 16384

noncomputable section

open Idealize.ShloMosaic Idealize.ShloMosaic.TcCoe Idealize.SL.Sem

namespace Cert.KernelIdeal.ProjBridge

open Cert.KernelIdeal Cert.KernelIdeal.Gen
open Cert.KernelIdeal.Proj (featIdx wIdx)
open Cert.ReferenceIdeal.Read (val_main_v46 val_main_v46_apply val_main_v60 val_main_v60_apply lidx_main_v46 ridx_main_v46 lidx_main_v60 ridx_main_v60)

/-- The first 128 columns of the kernel's product are the reference's product with the first weights. -/
theorem half1 (x0 x3 x4) :
    extractStridedSlice S50000x128 ![0, 0]
      (Cert.KernelIdeal.Proj.prod x0 (concatenate S128x256 1 [⟨S128x128, x3⟩, ⟨S128x128, x4⟩] concatenates_S128x128_S128x128_S128x256_d1))
      slices_S50000x256_S50000x128_0_0 = val_main_v46 (F := Ideal) x0 x3 := by
  funext i
  have hi1 : (i 1).val < 128 := (i 1).isLt
  let i' : S50000x256.Idx := fun a => match a with
    | ⟨0, _⟩ => ⟨(i 0).val, (i 0).isLt⟩
    | ⟨1, _⟩ => ⟨(i 1).val, by show (i 1).val < 256; omega⟩
  rw [extractStridedSlice_apply _ _ _ i i' (fun a => by
      match a with
      | ⟨0, _⟩ => show (i 0).val = 0 + (i 0).val; omega
      | ⟨1, _⟩ => show (i 1).val = 0 + (i 1).val; omega),
    val_main_v46_apply]
  unfold Cert.KernelIdeal.Proj.prod
  refine Finset.sum_congr rfl fun k _ => ?_
  refine congrArg₂ (· * ·) ?_ ?_
  · exact congrArg x0 (funext fun a => by match a with | ⟨0, _⟩ => rfl | ⟨1, _⟩ => rfl)
  · exact concatenate_pair_apply_left (1 : Fin 2) x3 x4 concatenates_S128x128_S128x128_S128x256_d1 (wIdx i' k) rfl (ridx_main_v46 i k)
      (fun b => by match b with | ⟨0, _⟩ => rfl | ⟨1, _⟩ => rfl)

/-- The last 128 columns of the kernel's product are the reference's product with the second weights. -/
theorem half2 (x0 x3 x4) :
    extractStridedSlice S50000x128 ![0, 128]
      (Cert.KernelIdeal.Proj.prod x0 (concatenate S128x256 1 [⟨S128x128, x3⟩, ⟨S128x128, x4⟩] concatenates_S128x128_S128x128_S128x256_d1))
      slices_S50000x256_S50000x128_0_128 = val_main_v60 (F := Ideal) x0 x4 := by
  funext i
  have hi1 : (i 1).val < 128 := (i 1).isLt
  let i' : S50000x256.Idx := fun a => match a with
    | ⟨0, _⟩ => ⟨(i 0).val, (i 0).isLt⟩
    | ⟨1, _⟩ => ⟨128 + (i 1).val, by show 128 + (i 1).val < 256; omega⟩
  rw [extractStridedSlice_apply _ _ _ i i' (fun a => by
      match a with
      | ⟨0, _⟩ => show (i 0).val = 0 + (i 0).val; omega
      | ⟨1, _⟩ => show 128 + (i 1).val = 128 + (i 1).val; rfl),
    val_main_v60_apply]
  unfold Cert.KernelIdeal.Proj.prod
  refine Finset.sum_congr rfl fun k _ => ?_
  refine congrArg₂ (· * ·) ?_ ?_
  · exact congrArg x0 (funext fun a => by match a with | ⟨0, _⟩ => rfl | ⟨1, _⟩ => rfl)
  · exact concatenate_pair_apply_right (1 : Fin 2) x3 x4 concatenates_S128x128_S128x128_S128x256_d1 (wIdx i' k) rfl rfl (ridx_main_v60 i k)
      (fun b hb => by
        match b with
        | ⟨0, _⟩ => rfl
        | ⟨1, _⟩ => exact absurd rfl hb)
      (by show (i 1).val + 128 = 128 + (i 1).val; omega)

end Cert.KernelIdeal.ProjBridge

end
-- ==== Proof.CombBridge.lean ====
import proofs.«401487_j41223096107203_1_alg».proof.Proof.CombValue
import proofs.«401487_j41223096107203_1_alg».proof.Proof.Gen.ReferenceIdeal.Read
import Idealize.ShloMosaic.Lib.Pipeline.Value

/-!
# The combine: the kernel's two products added are the reference's one product of the joined arrays

The reference joins the aggregate and the node features side by side into a [50000, 256] array and multiplies it by the
whole 256 × 128 weight array; the kernel multiplies the aggregate by the first 128 rows of the weights and the node features
by the last 128 rows and adds the two products. A sum over 256 terms is the sum of its first 128 terms and its last 128
(addition of extended reals is commutative and associative: no finiteness is needed), term k of the first half being
aggregate (r, k) times weight (k, q) and term k of the second half node feature (r, k) times weight (128 + k, q).
The bias and the maximum with zero are the same on both sides.
-/

set_option maxRecDepth 16384

noncomputable section

open Idealize.ShloMosaic Idealize.ShloMosaic.TcCoe Idealize.SL.Sem

namespace Cert.KernelIdeal.CombBridge

open Cert.KernelIdeal Cert.KernelIdeal.Gen
open Cert.KernelIdeal.Comb (rowIdx colIdx biasIdx)
open Cert.ReferenceIdeal.Read (val_main_v93 val_main_v94 val_main_v99 val_main_v99_apply val_main_v98_apply val_main_v95_apply val_main_v97_apply val_main_v96_apply
  val_main_call2_v0_apply val_main_call2_cst_apply lidx_main_v95 ridx_main_v95 idx_main_v96 idx_main_v97)

set_option maxHeartbeats 2000000 in
/-- With the reference's aggregate stage going in, the kernel's combine array is the reference's result stage. -/
theorem out_eq (x0 x1 x2 x3 x4 x5 x6 x7 x8 x9 x10 x11) :
    Cert.KernelIdeal.Comb.out (val_main_v93 (F := Ideal) x0 x1 x2 x3 x4 x5 x6 x7 x8 x9) x0
      (extractStridedSlice S128x128 ![0, 0] x10 slices_S256x128_S128x128_0_0)
      (extractStridedSlice S128x128 ![128, 0] x10 slices_S256x128_S128x128_128_0) x11
      = val_main_v99 (F := Ideal) x0 x1 x2 x3 x4 x5 x6 x7 x8 x9 x10 x11 := by
  funext i
  rw [val_main_v99_apply, val_main_v98_apply, val_main_v95_apply, val_main_v97_apply, val_main_v96_apply, val_main_call2_v0_apply,
    val_main_call2_cst_apply]
  unfold Cert.KernelIdeal.Comb.out val_main_v94
  generalize val_main_v93 (F := Ideal) x0 x1 x2 x3 x4 x5 x6 x7 x8 x9 = agg
  have eb : idx_main_v96 (idx_main_v97 i) = biasIdx i := funext fun a => by match a with | ⟨0, _⟩ => rfl
  rw [eb]
  simp only [Ideal.maximumf_def, Ideal.addf_def, Ideal.ofBits_def]
  refine congrArg₂ max (congrArg₂ (· + ·) ?_ rfl) rfl
  -- the reference's 256 terms are the first 128 and then the last 128
  symm
  show (∑ k : Fin (128 + 128), _) = _
  rw [Fin.sum_univ_add]
  refine congrArg₂ (· + ·) (Finset.sum_congr rfl fun k _ => ?_) (Finset.sum_congr rfl fun k _ => ?_)
  · refine congrArg₂ (· * ·) ?_ ?_
    · exact concatenate_pair_apply_left (1 : Fin 2) agg x0 _ (lidx_main_v95 i (Fin.castAdd 128 k)) rfl (rowIdx i k)
        (fun b => by match b with | ⟨0, _⟩ => rfl | ⟨1, _⟩ => rfl)
    · exact (extractStridedSlice_apply _ x10 slices_S256x128_S128x128_0_0 (colIdx i k) (ridx_main_v95 i (Fin.castAdd 128 k)) (fun a => by
        match a with
        | ⟨0, _⟩ => show k.val = 0 + k.val; omega
        | ⟨1, _⟩ => show (i 1).val = 0 + (i 1).val; omega)).symm
  · refine congrArg₂ (· * ·) ?_ ?_
    · exact concatenate_pair_apply_right (1 : Fin 2) agg x0 _ (lidx_main_v95 i (Fin.natAdd 128 k)) rfl rfl (rowIdx i k)
        (fun b hb => by
          match b with
          | ⟨0, _⟩ => rfl
          | ⟨1, _⟩ => exact absurd rfl hb)
        (by show k.val + 128 = 128 + k.val; omega)
    · exact (extractStridedSlice_apply _ x10 slices_S256x128_S128x128_128_0 (colIdx i k) (ridx_main_v95 i (Fin.natAdd 128 k)) (fun a => by
        match a with
        | ⟨0, _⟩ => show 128 + k.val = 128 + k.val; rfl
        | ⟨1, _⟩ => show (i 1).val = 0 + (i 1).val; omega)).symm

end Cert.KernelIdeal.CombBridge

end
-- ==== Proof.HostChainA.lean ====
import proofs.«401487_j41223096107203_1_alg».proof.Proof.Gen.KernelIdeal.Frame
import proofs.«401487_j41223096107203_1_alg».proof.Proof.Gen.ReferenceIdeal.Read
import Idealize.ShloMosaic.Lib.StableHlo.Run

/-!
# The host operations between the edge-gate call and the projection call

After the gate array is cast to one axis, these operations split the edge index into source and target nodes, lay
the edges out twice (each edge in both directions), sum the gates into node degrees, raise the degrees plus a small
constant to the power −1/2, and scale each doubled gate by that factor at its row and at its column; one more
operation lays the two projection weight arrays side by side. The reference applies the same operations in the same
order to its own gate stage: given that stage going in, each value coming out is the reference's stage of that name.
The statements are over any buffer contents `X` at the point just after the cast.
-/

set_option maxRecDepth 16384

noncomputable section

open Idealize.ShloMosaic Idealize.ShloMosaic.TcCoe Idealize.SL.Sem Idealize.ShloMosaic.StableHlo

namespace Cert.KernelIdeal.HostA

open Cert.KernelIdeal Cert.KernelIdeal.Gen
open Cert.ReferenceIdeal.Read (val_main_v15 val_main_v20 val_main_v21 val_main_v45)

/-- The host operations after the cast of the gate array. -/
abbrev ops : List (HloOp τ sig (Elt Ideal)) := (hostOps1 (F := Ideal)).tail

set_option maxHeartbeats 4000000 in
/-- The doubled edge list's rows: sources then targets. -/
theorem rows_of (X : Valuation τ sig (Elt Ideal)) :
    StableHlo.after ops X (Proc.devRef .tc main_v6) = val_main_v20 (F := Ideal) (X (Proc.devRef .tc main_arg1)) := by
  simp only [ops, hostOps1, List.tail_cons]
  after_results
  rfl

set_option maxHeartbeats 4000000 in
/-- The doubled edge list's columns: targets then sources. -/
theorem cols_of (X : Valuation τ sig (Elt Ideal)) :
    StableHlo.after ops X (Proc.devRef .tc main_v7) = val_main_v21 (F := Ideal) (X (Proc.devRef .tc main_arg1)) := by
  simp only [ops, hostOps1, List.tail_cons]
  after_results
  rfl

set_option maxHeartbeats 40000000 in
/-- The normalized edge weights: with the reference's gate stage in the cast's buffer, the reference's stage. -/
theorem vals_of (X : Valuation τ sig (Elt Ideal)) (x2 x5 x6 x7 x8)
    (hew : X (Proc.devRef .tc main_v1) = val_main_v15 (F := Ideal) x2 x5 x6 x7 x8) :
    StableHlo.after ops X (Proc.devRef .tc main_v31) = val_main_v45 (F := Ideal) (X (Proc.devRef .tc main_arg1)) x2 x5 x6 x7 x8 := by
  simp only [ops, hostOps1, List.tail_cons]
  after_results
  rw [hew]
  rfl

set_option maxHeartbeats 4000000 in
/-- The two projection weight arrays side by side. -/
theorem wcat_of (X : Valuation τ sig (Elt Ideal)) :
    StableHlo.after ops X (Proc.devRef .tc main_v32)
      = concatenate S128x256 1 [⟨S128x128, X (Proc.devRef .tc main_arg3)⟩, ⟨S128x128, X (Proc.devRef .tc main_arg4)⟩] concatenates_S128x128_S128x128_S128x256_d1 := by
  simp only [ops, hostOps1, List.tail_cons]
  after_results

set_option maxHeartbeats 4000000 in
/-- The operations write none of the arguments read later. -/
theorem kept_of (X : Valuation τ sig (Elt Ideal)) :
    StableHlo.after ops X (Proc.devRef .tc main_arg0) = X (Proc.devRef .tc main_arg0)
    ∧ StableHlo.after ops X (Proc.devRef .tc main_arg9) = X (Proc.devRef .tc main_arg9)
    ∧ StableHlo.after ops X (Proc.devRef .tc main_arg10) = X (Proc.devRef .tc main_arg10)
    ∧ StableHlo.after ops X (Proc.devRef .tc main_arg11) = X (Proc.devRef .tc main_arg11) := by
  simp only [ops, hostOps1, List.tail_cons]
  refine ⟨?_, ?_, ?_, ?_⟩ <;> (after_results; try rfl)

end Cert.KernelIdeal.HostA

end
-- ==== Proof.HostChainC.lean ====
import proofs.«401487_j41223096107203_1_alg».proof.Proof.Gen.KernelIdeal.Frame
import proofs.«401487_j41223096107203_1_alg».proof.Proof.Gen.ReferenceIdeal.Read
import Idealize.ShloMosaic.Lib.StableHlo.Run
import Idealize.ShloMosaic.Lib.Pipeline.Frame

/-!
# The host operations between the projection call and the combine call

These operations gather rows of the two projected halves at the edges' columns, scale them by the normalized edge
weights, sum them into the edges' rows (once for the first half, twice in a row for the second), and mix the two sums by
the clamped gate scalar. The reference applies the same operations in the same order to its own projections and
weights: given that the values going in are the reference's stages, the value coming out is the reference's stage.
The long stretch is read in three parts, one per weighted sum; each statement is over any buffer contents at its
part's start.
-/

set_option maxRecDepth 16384

noncomputable section

open Idealize.ShloMosaic Idealize.ShloMosaic.TcCoe Idealize.SL.Sem Idealize.ShloMosaic.StableHlo

namespace Cert.KernelIdeal.HostC

open Cert.KernelIdeal Cert.KernelIdeal.Gen
open Cert.ReferenceIdeal.Read (val_main_v20 val_main_v21 val_main_v45 val_main_v46 val_main_v60 val_main_v59 val_main_v73 val_main_v86 val_main_v93)

/-- The first weighted sum's operations: the two slices of the product, then the one-hop sum of the first half. -/
abbrev L1 : List (HloOp τ sig (Elt Ideal)) := (hostOps2 (F := Ideal)).take 18
/-- The second weighted sum's operations: the sum of the second half. -/
abbrev L2 : List (HloOp τ sig (Elt Ideal)) := ((hostOps2 (F := Ideal)).drop 18).take 16
/-- The third weighted sum's operations (the sum of the second sum) and the two constants the clamp reads. -/
abbrev L3 : List (HloOp τ sig (Elt Ideal)) := (hostOps2 (F := Ideal)).drop 34

/-- The stretch is its three parts in order. -/
theorem after_parts (X : Valuation τ sig (Elt Ideal)) :
    StableHlo.after (hostOps2 (F := Ideal)) X = StableHlo.after L3 (StableHlo.after L2 (StableHlo.after L1 X)) := by
  rw [← StableHlo.after_append, ← StableHlo.after_append]
  rfl

set_option maxHeartbeats 40000000 in
/-- The one-hop sum, and what the first part leaves untouched. -/
theorem part1 (X : Valuation τ sig (Elt Ideal)) (x0 x1 x2 x3 x5 x6 x7 x8)
    (h34 : extractStridedSlice S50000x128 ![0, 0] (X (Proc.devRef .tc main_v33)) slices_S50000x256_S50000x128_0_0 = val_main_v46 (F := Ideal) x0 x3)
    (h31 : X (Proc.devRef .tc main_v31) = val_main_v45 (F := Ideal) x1 x2 x5 x6 x7 x8)
    (h6 : X (Proc.devRef .tc main_v6) = val_main_v20 (F := Ideal) x1)
    (h7 : X (Proc.devRef .tc main_v7) = val_main_v21 (F := Ideal) x1) :
    StableHlo.after L1 X (Proc.devRef .tc main_v48) = val_main_v59 (F := Ideal) x0 x1 x2 x3 x5 x6 x7 x8
    ∧ StableHlo.after L1 X (Proc.devRef .tc main_v35) = extractStridedSlice S50000x128 ![0, 128] (X (Proc.devRef .tc main_v33)) slices_S50000x256_S50000x128_0_128
    ∧ StableHlo.after L1 X (Proc.devRef .tc main_v31) = X (Proc.devRef .tc main_v31)
    ∧ StableHlo.after L1 X (Proc.devRef .tc main_v6) = X (Proc.devRef .tc main_v6)
    ∧ StableHlo.after L1 X (Proc.devRef .tc main_v7) = X (Proc.devRef .tc main_v7)
    ∧ StableHlo.after L1 X (Proc.devRef .tc main_arg9) = X (Proc.devRef .tc main_arg9) := by
  simp only [L1, hostOps2, List.take_succ_cons, List.take_zero, List.drop_succ_cons, List.drop_zero]
  refine ⟨?_, ?_, ?_, ?_, ?_, ?_⟩
  · after_results
    rw [h34, h31, h6, h7]
    rfl
  all_goals (after_results; try rfl)

set_option maxHeartbeats 40000000 in
/-- The sum of the second half, and what the second part leaves untouched. -/
theorem part2 (Y : Valuation τ sig (Elt Ideal)) (x0 x1 x2 x4 x5 x6 x7 x8)
    (h35 : Y (Proc.devRef .tc main_v35) = val_main_v60 (F := Ideal) x0 x4)
    (h31 : Y (Proc.devRef .tc main_v31) = val_main_v45 (F := Ideal) x1 x2 x5 x6 x7 x8)
    (h6 : Y (Proc.devRef .tc main_v6) = val_main_v20 (F := Ideal) x1)
    (h7 : Y (Proc.devRef .tc main_v7) = val_main_v21 (F := Ideal) x1) :
    StableHlo.after L2 Y (Proc.devRef .tc main_v61) = val_main_v73 (F := Ideal) x0 x1 x2 x4 x5 x6 x7 x8
    ∧ StableHlo.after L2 Y (Proc.devRef .tc main_v48) = Y (Proc.devRef .tc main_v48)
    ∧ StableHlo.after L2 Y (Proc.devRef .tc main_v31) = Y (Proc.devRef .tc main_v31)
    ∧ StableHlo.after L2 Y (Proc.devRef .tc main_v6) = Y (Proc.devRef .tc main_v6)
    ∧ StableHlo.after L2 Y (Proc.devRef .tc main_v7) = Y (Proc.devRef .tc main_v7)
    ∧ StableHlo.after L2 Y (Proc.devRef .tc main_arg9) = Y (Proc.devRef .tc main_arg9) := by
  simp only [L2, hostOps2, List.take_succ_cons, List.take_zero, List.drop_succ_cons, List.drop_zero]
  refine ⟨?_, ?_, ?_, ?_, ?_, ?_⟩
  · after_results
    rw [h35, h31, h6, h7]
    rfl
  all_goals (after_results; try rfl)

set_option maxHeartbeats 40000000 in
/-- The two-hop sum, the clamp's two constants, and what the third part leaves untouched. -/
theorem part3 (Z : Valuation τ sig (Elt Ideal)) (x0 x1 x2 x4 x5 x6 x7 x8)
    (h61 : Z (Proc.devRef .tc main_v61) = val_main_v73 (F := Ideal) x0 x1 x2 x4 x5 x6 x7 x8)
    (h31 : Z (Proc.devRef .tc main_v31) = val_main_v45 (F := Ideal) x1 x2 x5 x6 x7 x8)
    (h6 : Z (Proc.devRef .tc main_v6) = val_main_v20 (F := Ideal) x1)
    (h7 : Z (Proc.devRef .tc main_v7) = val_main_v21 (F := Ideal) x1) :
    StableHlo.after L3 Z (Proc.devRef .tc main_v74) = val_main_v86 (F := Ideal) x0 x1 x2 x4 x5 x6 x7 x8
    ∧ StableHlo.after L3 Z (Proc.devRef .tc main_cst_14) = constant (F := Ideal) S_ .f32 0x00000000#32
    ∧ StableHlo.after L3 Z (Proc.devRef .tc main_cst_15) = constant (F := Ideal) S_ .f32 0x3F800000#32
    ∧ StableHlo.after L3 Z (Proc.devRef .tc main_v48) = Z (Proc.devRef .tc main_v48)
    ∧ StableHlo.after L3 Z (Proc.devRef .tc main_arg9) = Z (Proc.devRef .tc main_arg9) := by
  simp only [L3, hostOps2, List.take_succ_cons, List.take_zero, List.drop_succ_cons, List.drop_zero]
  refine ⟨?_, ?_, ?_, ?_, ?_⟩
  · after_results
    rw [h61, h31, h6, h7]
    rfl
  all_goals (after_results; try rfl)

set_option maxHeartbeats 40000000 in
/-- The clamp of the gate scalar and the mix of the two sums. -/
theorem mix_of (U : Valuation τ sig (Elt Ideal)) (x0 x1 x2 x3 x4 x5 x6 x7 x8 x9)
    (h48 : U (Proc.devRef .tc main_v48) = val_main_v59 (F := Ideal) x0 x1 x2 x3 x5 x6 x7 x8)
    (h74 : U (Proc.devRef .tc main_v74) = val_main_v86 (F := Ideal) x0 x1 x2 x4 x5 x6 x7 x8)
    (h14 : U (Proc.devRef .tc main_cst_14) = constant (F := Ideal) S_ .f32 0x00000000#32)
    (h15 : U (Proc.devRef .tc main_cst_15) = constant (F := Ideal) S_ .f32 0x3F800000#32)
    (h9 : U (Proc.devRef .tc main_arg9) = x9) :
    StableHlo.after (hostOps2_2 (F := Ideal)) (StableHlo.after (hostOps2_1 (F := Ideal)) U) (Proc.devRef .tc main_v81)
      = val_main_v93 (F := Ideal) x0 x1 x2 x3 x4 x5 x6 x7 x8 x9 := by
  simp only [hostOps2_1, hostOps2_2]
  after_results
  rw [h48, h74, h14, h15, h9]
  rfl

/-- The mixed aggregate: from the two projected halves, the normalized edge weights, the edges' rows and columns and the
    gate scalar at the reference's stages, the operations leave the reference's aggregate stage. -/
theorem agg_of (X : Valuation τ sig (Elt Ideal)) (x0 x1 x2 x3 x4 x5 x6 x7 x8 x9)
    (h34 : extractStridedSlice S50000x128 ![0, 0] (X (Proc.devRef .tc main_v33)) slices_S50000x256_S50000x128_0_0 = val_main_v46 (F := Ideal) x0 x3)
    (h35 : extractStridedSlice S50000x128 ![0, 128] (X (Proc.devRef .tc main_v33)) slices_S50000x256_S50000x128_0_128 = val_main_v60 (F := Ideal) x0 x4)
    (h31 : X (Proc.devRef .tc main_v31) = val_main_v45 (F := Ideal) x1 x2 x5 x6 x7 x8)
    (h6 : X (Proc.devRef .tc main_v6) = val_main_v20 (F := Ideal) x1)
    (h7 : X (Proc.devRef .tc main_v7) = val_main_v21 (F := Ideal) x1)
    (h9 : X (Proc.devRef .tc main_arg9) = x9) :
    StableHlo.after (hostOps2_2 (F := Ideal)) (StableHlo.after (hostOps2_1 (F := Ideal)) (StableHlo.after (hostOps2 (F := Ideal)) X)) (Proc.devRef .tc main_v81)
      = val_main_v93 (F := Ideal) x0 x1 x2 x3 x4 x5 x6 x7 x8 x9 := by
  rw [after_parts]
  obtain ⟨a48, a35, a31, a6, a7, a9⟩ := part1 X x0 x1 x2 x3 x5 x6 x7 x8 h34 h31 h6 h7
  obtain ⟨b61, b48, b31, b6, b7, b9⟩ := part2 (StableHlo.after L1 X) x0 x1 x2 x4 x5 x6 x7 x8
    (a35.trans h35) (a31.trans h31) (a6.trans h6) (a7.trans h7)
  obtain ⟨c74, c14, c15, c48, c9⟩ := part3 (StableHlo.after L2 (StableHlo.after L1 X)) x0 x1 x2 x4 x5 x6 x7 x8
    b61 (b31.trans (a31.trans h31)) (b6.trans (a6.trans h6)) (b7.trans (a7.trans h7))
  exact mix_of _ x0 x1 x2 x3 x4 x5 x6 x7 x8 x9 (c48.trans (b48.trans a48)) c74 c14 c15 (c9.trans (b9.trans (a9.trans h9)))

set_option maxHeartbeats 4000000 in
/-- The last stretch of host operations slices the last weight array in two and leaves it as it was. -/
theorem tail_of (Y : Valuation τ sig (Elt Ideal)) :
    StableHlo.after (hostOps2_2 (F := Ideal)) Y (Proc.devRef .tc main_v82)
        = extractStridedSlice S128x128 ![0, 0] (Y (Proc.devRef .tc main_arg10)) slices_S256x128_S128x128_0_0
    ∧ StableHlo.after (hostOps2_2 (F := Ideal)) Y (Proc.devRef .tc main_v83)
        = extractStridedSlice S128x128 ![128, 0] (Y (Proc.devRef .tc main_arg10)) slices_S256x128_S128x128_128_0
    ∧ StableHlo.after (hostOps2_2 (F := Ideal)) Y (Proc.devRef .tc main_arg10) = Y (Proc.devRef .tc main_arg10) := by
  simp only [hostOps2_2]
  refine ⟨?_, ?_, ?_⟩ <;> (after_results; try rfl)

end Cert.KernelIdeal.HostC

end
-- ==== Proof.KernelValue.lean ====
import proofs.«401487_j41223096107203_1_alg».proof.Proof.KernelRun
import proofs.«401487_j41223096107203_1_alg».proof.Proof.GateValue
import proofs.«401487_j41223096107203_1_alg».proof.Proof.ProjValue
import proofs.«401487_j41223096107203_1_alg».proof.Proof.CombValue
import proofs.«401487_j41223096107203_1_alg».proof.Proof.GateBridge
import proofs.«401487_j41223096107203_1_alg».proof.Proof.ProjBridge
import proofs.«401487_j41223096107203_1_alg».proof.Proof.CombBridge
import proofs.«401487_j41223096107203_1_alg».proof.Proof.HostChainA
import proofs.«401487_j41223096107203_1_alg».proof.Proof.HostChainC

/-!
# The kernel's result is the reference's result stage

The kernel's program is three pallas_calls among host operations. Walking the buffer contents from the launch to the
return: the edge-gate call leaves the gate array, which cast to one axis is the reference's gate stage; the host
operations that follow turn it into the reference's normalized edge weights and lay the two projection weights side by
side; the projection call leaves the product whose two column halves are the reference's two projections; the next
host operations leave the reference's aggregate stage; and the combine call, on that aggregate, the node features and
the two halves of the last weight array, leaves the reference's result stage.
-/

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen
open Cert.ReferenceIdeal.Read (val_main_v15 val_main_v20 val_main_v21 val_main_v45 val_main_v46 val_main_v60 val_main_v93 val_main_v99)

variable (m : (ℓ : Loc nD τ sig) → Buf (Elt Ideal) ℓ) (ρ : Dev nD → PrngReg)

/-! ## After the edge-gate call -/

theorem W1_v0 (c : Dev nD) : W1 m ρ c (Proc.devRef .tc main_v0)
    = Gate.out (m ((c : Thread nD τ).loc main_arg2)) (m ((c : Thread nD τ).loc main_arg5)) (m ((c : Thread nD τ).loc main_arg6)) (m ((c : Thread nD τ).loc main_arg7)) (m ((c : Thread nD τ).loc main_arg8)) :=
  (W1_arr m ρ c 5).trans (Gate.final (V0 m ρ) c)

/-- The call writes no argument. -/
theorem W1_arg (c : Dev nD) (b : Ref sig .tc) (hb : ∀ w, Pipeline.arrRef spec0 w ≠ b) :
    W1 m ρ c (Proc.devRef .tc b) = m ((c : Thread nD τ).loc b) :=
  W1_of_ne m ρ c b hb

/-! ## Just after the gate array's cast to one axis -/

/-- The buffer contents there. -/
abbrev X1 (c : Dev nD) : Valuation τ sig (Elt Ideal) :=
  (StableHlo.reshape (τ := τ) (Val := Elt Ideal) main_v0 main_v1 rfl shapeCasts_S800000x1_S800000).result (W1 m ρ c)

theorem X1_ne (c : Dev nD) (b : Ref sig .tc) (hb : b ≠ main_v1) : X1 m ρ c (Proc.devRef .tc b) = W1 m ρ c (Proc.devRef .tc b) :=
  StableHlo.reshape_result_ne _ _ _ _ _ _ (W1 m ρ c) hb

theorem X1_arg (c : Dev nD) (b : Ref sig .tc) (hb : b ≠ main_v1) (hb' : ∀ w, Pipeline.arrRef spec0 w ≠ b) :
    X1 m ρ c (Proc.devRef .tc b) = m ((c : Thread nD τ).loc b) :=
  (X1_ne m ρ c b hb).trans (W1_arg m ρ c b hb')

/-- The cast gate array is the reference's gate stage. -/
theorem X1_v1 (c : Dev nD) : X1 m ρ c (Proc.devRef .tc main_v1)
    = val_main_v15 (F := Ideal) (m ((c : Thread nD τ).loc main_arg2)) (m ((c : Thread nD τ).loc main_arg5)) (m ((c : Thread nD τ).loc main_arg6)) (m ((c : Thread nD τ).loc main_arg7)) (m ((c : Thread nD τ).loc main_arg8)) := by
  refine (StableHlo.reshape_result main_v0 main_v1 rfl shapeCasts_S800000x1_S800000 _ _ (W1 m ρ c)).trans ?_
  funext i
  show shapeCast S800000 (W1 m ρ c (Proc.devRef .tc main_v0)) shapeCasts_S800000x1_S800000 i = _
  rw [W1_v0]
  exact congrFun (GateBridge.gate_eq _ _ _ _ _) i

/-! ## At the projection call's entry -/

theorem W2_eq (c : Dev nD) (b : DevRef τ sig) : W2 m ρ c b = StableHlo.after HostA.ops (X1 m ρ c) b := rfl

theorem W2_v31 (c : Dev nD) : W2 m ρ c (Proc.devRef .tc main_v31)
    = val_main_v45 (F := Ideal) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  rw [W2_eq, HostA.vals_of (X1 m ρ c) _ _ _ _ _ (X1_v1 m ρ c), X1_arg m ρ c main_arg1 (by decide) (by decide)]

theorem W2_v6 (c : Dev nD) : W2 m ρ c (Proc.devRef .tc main_v6) = val_main_v20 (F := Ideal) (m ((c : Thread nD τ).loc main_arg1)) := by
  rw [W2_eq, HostA.rows_of, X1_arg m ρ c main_arg1 (by decide) (by decide)]

theorem W2_v7 (c : Dev nD) : W2 m ρ c (Proc.devRef .tc main_v7) = val_main_v21 (F := Ideal) (m ((c : Thread nD τ).loc main_arg1)) := by
  rw [W2_eq, HostA.cols_of, X1_arg m ρ c main_arg1 (by decide) (by decide)]

theorem W2_v32 (c : Dev nD) : W2 m ρ c (Proc.devRef .tc main_v32)
    = concatenate S128x256 1 [⟨S128x128, (m ((c : Thread nD τ).loc main_arg3))⟩, ⟨S128x128, (m ((c : Thread nD τ).loc main_arg4))⟩] concatenates_S128x128_S128x128_S128x256_d1 := by
  rw [W2_eq, HostA.wcat_of, X1_arg m ρ c main_arg3 (by decide) (by decide), X1_arg m ρ c main_arg4 (by decide) (by decide)]

theorem W2_arg0 (c : Dev nD) : W2 m ρ c (Proc.devRef .tc main_arg0) = (m ((c : Thread nD τ).loc main_arg0)) := by
  rw [W2_eq, (HostA.kept_of (X1 m ρ c)).1, X1_arg m ρ c main_arg0 (by decide) (by decide)]
theorem W2_arg9 (c : Dev nD) : W2 m ρ c (Proc.devRef .tc main_arg9) = (m ((c : Thread nD τ).loc main_arg9)) := by
  rw [W2_eq, (HostA.kept_of (X1 m ρ c)).2.1, X1_arg m ρ c main_arg9 (by decide) (by decide)]

/-! ## After the projection call -/

theorem W3_v33 (c : Dev nD) : W3 m ρ c (Proc.devRef .tc main_v33)
    = Proj.prod (m ((c : Thread nD τ).loc main_arg0)) (concatenate S128x256 1 [⟨S128x128, (m ((c : Thread nD τ).loc main_arg3))⟩, ⟨S128x128, (m ((c : Thread nD τ).loc main_arg4))⟩] concatenates_S128x128_S128x128_S128x256_d1) := by
  refine (W3_arr m ρ c 2).trans ((Proj.final (V2 m ρ) c).trans ?_)
  rw [show V2 m ρ c main_arg0 = (m ((c : Thread nD τ).loc main_arg0)) from W2_arg0 m ρ c, show V2 m ρ c main_v32 = _ from W2_v32 m ρ c]

/-! ## At the combine call's entry -/

theorem W6_v81 (c : Dev nD) : W6 m ρ c (Proc.devRef .tc main_v81)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine HostC.agg_of (W3 m ρ c) _ _ _ _ _ _ _ _ _ _ ?_ ?_ ?_ ?_ ?_ ?_
  · rw [W3_v33]; exact ProjBridge.half1 _ _ _
  · rw [W3_v33]; exact ProjBridge.half2 _ _ _
  · exact (W3_of_ne m ρ c main_v31 (by decide)).trans (W2_v31 m ρ c)
  · exact (W3_of_ne m ρ c main_v6 (by decide)).trans (W2_v6 m ρ c)
  · exact (W3_of_ne m ρ c main_v7 (by decide)).trans (W2_v7 m ρ c)
  · exact (W3_of_ne m ρ c main_arg9 (by decide)).trans (W2_arg9 m ρ c)

/-- The node features and the bias row are as launched at the combine call's entry: the call leaves them so, and they end as launched. -/
theorem W6_arg0 (c : Dev nD) : W6 m ρ c (Proc.devRef .tc main_arg0) = (m ((c : Thread nD τ).loc main_arg0)) :=
  ((W7_arr m ρ c 1).trans (((dat2 (V6 m ρ) c).arrAt_in 1 rfl _).trans (A_eq2 (V6 m ρ) c 1))).symm.trans (W7_main_arg0 m ρ c)
theorem W6_arg11 (c : Dev nD) : W6 m ρ c (Proc.devRef .tc main_arg11) = (m ((c : Thread nD τ).loc main_arg11)) :=
  ((W7_arr m ρ c 4).trans (((dat2 (V6 m ρ) c).arrAt_in 4 rfl _).trans (A_eq2 (V6 m ρ) c 4))).symm.trans (W7_main_arg11 m ρ c)

/-- The last weight array is as launched before the last stretch of host operations. -/
theorem W5_arg10 (c : Dev nD) : W5 m ρ c (Proc.devRef .tc main_arg10) = (m ((c : Thread nD τ).loc main_arg10)) :=
  (HostC.tail_of (W5 m ρ c)).2.2.symm.trans ((W7_of_ne m ρ c main_arg10 (by decide)).symm.trans (W7_main_arg10 m ρ c))

theorem W6_v82 (c : Dev nD) : W6 m ρ c (Proc.devRef .tc main_v82)
    = extractStridedSlice S128x128 ![0, 0] (m ((c : Thread nD τ).loc main_arg10)) slices_S256x128_S128x128_0_0 := by
  rw [← W5_arg10 m ρ c]; exact (HostC.tail_of (W5 m ρ c)).1
theorem W6_v83 (c : Dev nD) : W6 m ρ c (Proc.devRef .tc main_v83)
    = extractStridedSlice S128x128 ![128, 0] (m ((c : Thread nD τ).loc main_arg10)) slices_S256x128_S128x128_128_0 := by
  rw [← W5_arg10 m ρ c]; exact (HostC.tail_of (W5 m ρ c)).2.1

/-! ## After the combine call: the result -/

/-- The result buffer's final contents are the reference's result stage of the arguments. -/
theorem W7_v84 (c : Dev nD) : W7 m ρ c (Proc.devRef .tc main_v84)
    = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_arr m ρ c 5).trans ((Comb.final (V6 m ρ) c).trans ?_)
  rw [show V6 m ρ c main_v81 = _ from W6_v81 m ρ c, show V6 m ρ c main_arg0 = _ from W6_arg0 m ρ c,
    show V6 m ρ c main_v82 = _ from W6_v82 m ρ c, show V6 m ρ c main_v83 = _ from W6_v83 m ρ c,
    show V6 m ρ c main_arg11 = _ from W6_arg11 m ρ c]
  exact CombBridge.out_eq _ _ _ _ _ _ _ _ _ _ _ _

/-! ## The run -/

/-- Every weakly fair execution of the kernel's program terminates with the result buffer at the reference's result stage
    of the arguments, the arguments unchanged. -/
theorem run : θ_run defs (onTc (τ := τ) (main (F := Ideal))) ⟨m, fun _ => 0, ρ⟩ (fun r => ∀ c : Dev nD,
      r.2.mem ((c.tc : Thread nD τ).loc main_v84)
        = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W7_v84 m ρ c), (h c).2⟩) (GenRun.run_result m ρ)

end Cert.KernelIdeal.Result

end
-- ==== Proof.lean ====
/-
  Equivalence over the extended reals of a graph layer's kernel program and its jnp reference.

  The layer: an edge gate (a two-layer perceptron on the edge attributes followed by the logistic function), the doubled
  edge list's symmetric degree normalization of the gates, the node features projected by two weight arrays, a one-hop and
  a two-hop sparse aggregation mixed by a clamped scalar, and max(agg · W[:128] + H · W[128:] + b, 0).
  The kernel computes the gate, the two projections (as one product with the weights laid side by side) and the last
  step in three pallas_calls; the rest is the same host operations in both programs. At the ideal instance:
    * the kernel's logistic is the reference's 1 / (1 + exp(−x)) by definition;
    * a product with the side-by-side weights, sliced in two, is the two products;
    * a 256-term sum is the sum of its first 128 and its last 128 terms, so the product of the joined arrays with the whole
      last weight array is the sum of the two products with its halves (addition of extended reals is commutative and
      associative; nothing here needs the inputs finite).
  `preserves` is trivial: the ideal pass rewrote nothing.
-/
import proofs.«401487_j41223096107203_1_alg».proof.Defs
import proofs.«401487_j41223096107203_1_alg».proof.Proof.Gen.Kernel
import proofs.«401487_j41223096107203_1_alg».proof.Proof.Gen.Kernel.Frame
import proofs.«401487_j41223096107203_1_alg».proof.Proof.Gen.KernelIdeal
import proofs.«401487_j41223096107203_1_alg».proof.Proof.Gen.KernelIdeal.Frame
import proofs.«401487_j41223096107203_1_alg».proof.Proof.Gen.ReferenceIdeal
import proofs.«401487_j41223096107203_1_alg».proof.Proof.Gen.Pre_finite_inputs
import proofs.«401487_j41223096107203_1_alg».proof.Proof.Gen.ReferenceIdeal.Run
import proofs.«401487_j41223096107203_1_alg».proof.Proof.Gen.ReferenceIdeal.Read
import proofs.«401487_j41223096107203_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments in the result buffer. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v99_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
